-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S4096x128 .f32) (main_arg1 : FVec F S8192x128 .f32) (main_arg2 : FVec F S8192x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S4096x128 : Shape := ⟨2, ![4096, 128]⟩
abbrev S8192x128 : Shape := ⟨2, ![8192, 128]⟩
abbrev S4096x8192 : Shape := ⟨2, ![4096, 8192]⟩
abbrev S512x128 : Shape := ⟨2, ![512, 128]⟩
abbrev S2048x128 : Shape := ⟨2, ![2048, 128]⟩
abbrev S512x2048 : Shape := ⟨2, ![512, 2048]⟩
abbrev S2048 : Shape := ⟨1, ![2048]⟩
abbrev S2048x1 : Shape := ⟨2, ![2048, 1]⟩
abbrev S1x2048 : Shape := ⟨2, ![1, 2048]⟩
abbrev S128x2048 : Shape := ⟨2, ![128, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S8192x128, .f32⟩
  | .hbm, ⟨3, _⟩ => ⟨S4096x8192, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x2048, .f32⟩
  | .local _ .vmem, ⟨7, _⟩ => ⟨S512x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  transposes_S2048x128_p1_0_S128x2048 : S2048x128.Transposes [1, 0] S128x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x8192.size a
  hwx0_3 : ∀ i : grid0.Coords, EltTy.bits .f32 = 32 ∨ (Rect.block (s := S4096x8192) S512x2048.size (cc0_transform_3 i) (hinb0_3 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S128x8192 : Shape := ⟨2, ![128, 8192]⟩
abbrev S4096x8192 : Shape := ⟨2, ![4096, 8192]⟩
abbrev S8192 : Shape := ⟨1, ![8192]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S4096x128, .f32⟩
  | .hbm, ⟨11, _⟩ => ⟨S128x8192, .f32⟩
  | .hbm, ⟨12, _⟩ => ⟨S4096x8192, .f32⟩
  | .hbm, ⟨13, _⟩ => ⟨S8192x128, .f32⟩
  | .hbm, ⟨14, _⟩ => ⟨S128x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S8192x128, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S1x8192, .f32⟩
  | .hbm, ⟨37, _⟩ => ⟨S4096x8192, .f32⟩
  | .hbm, ⟨38, _⟩ => ⟨S4096x8192, .f32⟩
  | .hbm, ⟨39, _⟩ => ⟨S_, .f32⟩
  | .hbm, ⟨40, _⟩ => ⟨S4096x8192, .f32⟩
  | .hbm, ⟨41, _⟩ => ⟨S4096x8192, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  transposes_S8192x128_S128x8192_1_0 : S8192x128.Transposes [1, 0] S128x8192
  bcast_S_S4096x8192 : S_.BroadcastsInDim S4096x8192 (![] : Fin 0 → Fin S4096x8192.rank)
  reducesTo_S8192x128_S8192_d1 : S8192x128.ReducesTo [1] S8192
  h_S_ : 0 < S_.numel
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S8192 : S_.BroadcastsInDim S8192 (![] : Fin 0 → Fin S8192.rank)
  dot_S4096x128_S128x8192_S4096x8192_1_0_0_1_n_n_wf : DotDims.WF S4096x128 S128x8192 S4096x8192 [1] [0] [0] [1] [] []

variable [Facts₀]

def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf

class Facts : Prop extends Facts₀ where

variable [Facts]
-- ==== Proof.FiniteInputs.lean ====
/-
  What the precondition says: each of the three input arrays is tested entry by entry for `|a| < +∞`, the tests of an
  array are joined by `and` into one bit, and the three bits are joined by `and`. When the result is 1 every test is 1,
  and on the extended reals `max a (−a) < ⊤` leaves out exactly `⊤` and `⊥`: every entry is a real number.
-/
import proofs.«147399_j66434554134953_1_alg».proof.Pre_finite_inputs
import Idealize.ShloMosaic.PureOps.Ideal
import Idealize.ShloMosaic.Lib.Affine
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- `|x| < +∞` on the extended reals says that `x` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of every input is a real number. -/
theorem entries_real [Facts] (a0 : FVec Ideal S4096x128 .f32) (a1 a2 : FVec Ideal S8192x128 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨fun i => real_of_abs_lt_top _ (Host.reduce_andi_all _ _ _ _ _ h0' i),
    fun i => real_of_abs_lt_top _ (Host.reduce_andi_all _ _ _ _ _ h1 i),
    fun i => real_of_abs_lt_top _ (Host.reduce_andi_all _ _ _ _ _ h2 i)⟩

end Cert.Finite

end
-- ==== Proof.EnergyAlgebra.lean ====
/-
  The scalar mathematics of the energy both programs compute, on the extended reals.

  For one batch row `x`, one codebook row `mu` and its variances `dg` (128 entries each) write
  `v k = max ε (dg k)` for the clipped variance, `p k = 1 / v k` for the precision, and
    A = ∑ x²·p,   B = ∑ x·(mu·p),   S = ∑ mu²·p,   L = ∑ log v,   I = ∑ p.
  The kernel evaluates   (½·A − B) + ½·(S + ((L + I) − 128)),
  the reference          ½·(((A − 2·B) + S) + ((L + I) − 128)).
  The two differ by distributing ½ over a sum and by ½·2 = 1, laws that fail at the infinities, and by the
  grouping `mu·(mu·p)` against `(mu·mu)·p`. When every entry of `x`, `mu` and `dg` is a real number, the clipped
  variance is a real number at least ε > 0, so its reciprocal and its logarithm are real numbers and all five sums are
  sums of reals: the identity is then one of the real field.
-/
import Idealize.ShloMosaic.PureOps.Ideal

noncomputable section

namespace Cert.Energy

open Idealize.ShloMosaic

/-! ## The five float constants the programs spell -/

/-- The variance floor, `9.99999997e-7`: a positive real (the pattern's value is `8796093 · 2⁻⁴³`). -/
theorem eps_eq : Ideal.ofBits .f32 0x358637BD#32 = ((8796093 * (2 : ℝ) ^ (-43 : ℤ) : ℝ) : EReal) := by
  simp [Ideal.ofBits, Ideal.ieee, -EReal.coe_mul]

theorem eps_pos : ∃ e : ℝ, 0 < e ∧ Ideal.ofBits .f32 0x358637BD#32 = (e : EReal) :=
  ⟨_, by positivity, eps_eq⟩

/-- `1.0` denotes the real `1`. -/
theorem one_eq : Ideal.ofBits .f32 0x3F800000#32 = ((1 : ℝ) : EReal) := by
  simp [Ideal.ofBits, Ideal.ieee, -EReal.coe_mul]; norm_num

/-- `0.5` denotes the real `1/2`. -/
theorem half_eq : Ideal.ofBits .f32 0x3F000000#32 = ((1 / 2 : ℝ) : EReal) := by
  simp [Ideal.ofBits, Ideal.ieee, -EReal.coe_mul]; norm_num

/-- `2.0` denotes the real `2`. -/
theorem two_eq : Ideal.ofBits .f32 0x40000000#32 = ((2 : ℝ) : EReal) := by
  simp [Ideal.ofBits, Ideal.ieee, -EReal.coe_mul]; norm_num

/-- `128.0`, the dimension, denotes the real `128`. -/
theorem dim_eq : Ideal.ofBits .f32 0x43000000#32 = ((128 : ℝ) : EReal) := by
  simp [Ideal.ofBits, Ideal.ieee, -EReal.coe_mul]; norm_num

/-! ## The two arrangements -/

/-- The clipped variance `max ε d`. -/
def var (d : EReal) : EReal := max (Ideal.ofBits .f32 0x358637BD#32) d

/-- The precision `1 / max ε d`. -/
def prec (d : EReal) : EReal := Ideal.div (Ideal.ofBits .f32 0x3F800000#32) (var d)

/-- The kernel's arrangement: `(½·A − B) + ½·(S + ((L + I) − 128))`, with `S` grouped `mu·(mu·p)`. -/
def energyK (x mu dg : Fin 128 → EReal) : EReal :=
  (Ideal.ofBits .f32 0x3F000000#32 * (∑ k, (x k * x k) * prec (dg k)) - ∑ k, x k * (mu k * prec (dg k)))
    + Ideal.ofBits .f32 0x3F000000#32
      * ((∑ k, mu k * (mu k * prec (dg k)))
          + (((∑ k, Ideal.log (var (dg k))) + ∑ k, prec (dg k)) - Ideal.ofBits .f32 0x43000000#32))

/-- The reference's arrangement: `½·(((A − 2·B) + S) + ((L + I) − 128))`, with `S` grouped `(mu·mu)·p`. -/
def energyR (x mu dg : Fin 128 → EReal) : EReal :=
  Ideal.ofBits .f32 0x3F000000#32
    * ((((∑ k, (x k * x k) * prec (dg k)) - Ideal.ofBits .f32 0x40000000#32 * (∑ k, x k * (mu k * prec (dg k))))
          + ∑ k, (mu k * mu k) * prec (dg k))
        + (((∑ k, Ideal.log (var (dg k))) + ∑ k, prec (dg k)) - Ideal.ofBits .f32 0x43000000#32))

/-! ## They agree on real rows -/

/-- A finite sum of real numbers, taken in the extended reals, is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- On rows of real numbers the two arrangements are one extended real. -/
theorem energyK_eq_energyR (x mu dg : Fin 128 → EReal) (hx : ∀ k, ∃ r : ℝ, x k = (r : EReal))
    (hmu : ∀ k, ∃ r : ℝ, mu k = (r : EReal)) (hdg : ∀ k, ∃ r : ℝ, dg k = (r : EReal)) :
    energyK x mu dg = energyR x mu dg := by
  choose xr hx using hx
  choose mr hmu using hmu
  choose dr hdg using hdg
  obtain ⟨e, he, hE⟩ := eps_pos
  have hpos : ∀ k, 0 < max e (dr k) := fun k => lt_max_of_lt_left he
  have hvar : ∀ k, var (dg k) = ((max e (dr k) : ℝ) : EReal) := fun k => by
    rw [var, hdg, hE]
    exact (EReal.coe_strictMono.monotone.map_max).symm
  have hprec : ∀ k, prec (dg k) = ((1 / max e (dr k) : ℝ) : EReal) := fun k => by
    rw [prec, hvar, Ideal.div_coe (ne_of_gt (hpos k)), one_eq, ← EReal.coe_mul, one_mul]
  have hlog : ∀ k, Ideal.log (var (dg k)) = ((Real.log (max e (dr k)) : ℝ) : EReal) := fun k => by
    rw [hvar, Ideal.log_coe, if_neg (not_le.mpr (hpos k))]
  have hS : ∑ k, mr k * (mr k * (1 / max e (dr k))) = ∑ k, (mr k * mr k) * (1 / max e (dr k)) :=
    Finset.sum_congr rfl fun k _ => by ring
  simp only [energyK, energyR, hx, hmu, hprec, hlog, half_eq, two_eq, dim_eq, ← EReal.coe_mul, sum_coe,
    ← EReal.coe_add, ← EReal.coe_sub]
  rw [hS]
  congr 1
  ring

end Cert.Energy

end
-- ==== Proof.KernelPayload.lean ====
/-
  What the kernel body stores at one entry of its 512 × 2048 output block, as a function of its three loaded blocks:
  the rows `p` of the batch block and `q` of the two codebook blocks (means and variances) enter, and nothing else.

  The body forms the precision block `1 / max ε diag` once, two matrix products against its transpose (the batch
  block's squares, and the batch block against mean·precision), three row sums over the codebook blocks (mean·(mean·precision),
  the logarithm of the clipped variance, the precision) kept as a 2048 × 1 column, transposed to a row and laid over the
  512 rows. Read at `(p, q)` each product is a sum over the 128 shared coordinates and each row sum the sum over row `q`,
  so the entry is the kernel's arrangement of the energy (`Cert.Energy.energyK`) of rows `p` and `q`. A change of float
  format is the identity on the extended reals, so the bf16 operands of the products are the f32 values themselves.
-/
import proofs.«147399_j66434554134953_1_alg».proof.Proof.Gen.KernelIdeal.Skeleton
import proofs.«147399_j66434554134953_1_alg».proof.Proof.EnergyAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## Two layout facts -/

/-- A length-`a` vector cast to an `a × 1` column reads, at `(i, u)`, the vector at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows of a 2048 × 128 block. -/
def rowsum (v : FVec Ideal S2048x128 .f32) : FVec Ideal S2048 .f32 :=
  multiReduction .add [1] S2048 v 0x00000000#32 reduces_S2048x128_S2048 (.inl rfl) rfl

/-- At `q` it is the sum of row `q`. -/
theorem rowsum_apply (v : FVec Ideal S2048x128 .f32) (q : Fin 2048) : rowsum v (ix1 q) = ∑ k : Fin 128, v (ix2 q k) := by
  unfold rowsum
  refine (Ideal.multiReduction_add_single v 0x00000000#32 reduces_S2048x128_S2048 (.inl rfl) rfl (ix1 q)).trans ?_
  exact Finset.sum_congr rfl fun k _ => congrArg v (funext fun a => Fin.ext (by match a with | ⟨0, _⟩ => rfl | ⟨1, _⟩ => rfl))

/-! ## The matrix product of a 512 × 128 by a 128 × 2048 operand, read at an entry -/

theorem lhs_axis0 (i : S512x2048.Idx) (c : dot_S512x128_S128x2048_S512x2048_1_0_0_1_n_n.contr.Idx) :
    (dot_S512x128_S128x2048_S512x2048_1_0_0_1_n_n.lhsIdx i c 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_axis1 (i : S512x2048.Idx) (c : dot_S512x128_S128x2048_S512x2048_1_0_0_1_n_n.contr.Idx) :
    (dot_S512x128_S128x2048_S512x2048_1_0_0_1_n_n.lhsIdx i c 1).val = (c ⟨0, by decide⟩).val :=
  dot_S512x128_S128x2048_S512x2048_1_0_0_1_n_n.lhsIdx_val_of_single rfl i c
theorem rhs_axis0 (i : S512x2048.Idx) (c : dot_S512x128_S128x2048_S512x2048_1_0_0_1_n_n.contr.Idx) :
    (dot_S512x128_S128x2048_S512x2048_1_0_0_1_n_n.rhsIdx i c 0).val = (c ⟨0, by decide⟩).val :=
  dot_S512x128_S128x2048_S512x2048_1_0_0_1_n_n.rhsIdx_val_of_single rfl i c
theorem rhs_axis1 (i : S512x2048.Idx) (c : dot_S512x128_S128x2048_S512x2048_1_0_0_1_n_n.contr.Idx) :
    (dot_S512x128_S128x2048_S512x2048_1_0_0_1_n_n.rhsIdx i c 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- Into a zero accumulator the product at `(p, q)` is `∑ k, a[p, k] · b[k, q]`. -/
theorem matmul_at (a : FVec Ideal S512x128 .bf16) (b : FVec Ideal S128x2048 .bf16) (p : Fin 512) (q : Fin 2048) :
    matmul dot_S512x128_S128x2048_S512x2048_1_0_0_1_n_n none a b (constant (F := Ideal) S512x2048 .f32 0x00000000#32) (ix2 p q)
      = ∑ k : Fin 128, a (ix2 p k) * b (ix2 k q) := by
  simp only [matmul]
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 p q) ((ValueIdx.contrEquiv1 dot_S512x128_S128x2048_S512x2048_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S512x128_S128x2048_S512x2048_1_0_0_1_n_n.rhsIdx (ix2 p q) ((ValueIdx.contrEquiv1 dot_S512x128_S128x2048_S512x2048_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's pieces -/

/-- The clipped variance block `max ε diag`. -/
def varV (x2 : FVec Ideal S2048x128 .f32) : FVec Ideal S2048x128 .f32 :=
  maximumf (broadcast S2048x128 (Scalar.ofBits .f32 0x358637BD#32)) x2

/-- The precision block `1 / max ε diag`. -/
def precV (x2 : FVec Ideal S2048x128 .f32) : FVec Ideal S2048x128 .f32 :=
  divf (broadcast S2048x128 (Scalar.ofBits .f32 0x3F800000#32)) (varV x2)

theorem varV_apply (x2 : FVec Ideal S2048x128 .f32) (i : S2048x128.Idx) : varV x2 i = Cert.Energy.var (x2 i) := rfl
theorem precV_apply (x2 : FVec Ideal S2048x128 .f32) (i : S2048x128.Idx) : precV x2 i = Cert.Energy.prec (x2 i) := rfl

/-- The first product: the batch block's squares against the transposed precision block. -/
def term1 (x0 : FVec Ideal S512x128 .f32) (x2 : FVec Ideal S2048x128 .f32) : FVec Ideal S512x2048 .f32 :=
  matmul dot_S512x128_S128x2048_S512x2048_1_0_0_1_n_n none (truncf .bf16 (mulf x0 x0) bitsLt_bf16_f32)
    (transpose S128x2048 [1, 0] (truncf .bf16 (precV x2) bitsLt_bf16_f32) transposes_S2048x128_p1_0_S128x2048)
    (constant S512x2048 .f32 0x00000000#32)

/-- The second product: the batch block against the transposed mean·precision block. -/
def term2 (x0 : FVec Ideal S512x128 .f32) (x1 x2 : FVec Ideal S2048x128 .f32) : FVec Ideal S512x2048 .f32 :=
  matmul dot_S512x128_S128x2048_S512x2048_1_0_0_1_n_n none (truncf .bf16 x0 bitsLt_bf16_f32)
    (transpose S128x2048 [1, 0] (truncf .bf16 (mulf x1 (precV x2)) bitsLt_bf16_f32) transposes_S2048x128_p1_0_S128x2048)
    (constant S512x2048 .f32 0x00000000#32)

/-- The per-codebook-row term `½·(S + ((L + I) − 128))` as a 1 × 2048 row. -/
def biasRow (x1 x2 : FVec Ideal S2048x128 .f32) : FVec Ideal S1x2048 .f32 :=
  transpose S1x2048 [1, 0]
    (mulf (broadcast S2048x1 (Scalar.ofBits .f32 0x3F000000#32))
      (addf (shapeCast S2048x1 (rowsum (mulf x1 (mulf x1 (precV x2)))) shapeCasts_S2048_S2048x1)
        (subf (addf (shapeCast S2048x1 (rowsum (log (varV x2))) shapeCasts_S2048_S2048x1)
                (shapeCast S2048x1 (rowsum (precV x2)) shapeCasts_S2048_S2048x1))
          (broadcast S2048x1 (Scalar.ofBits .f32 0x43000000#32)))))
    transposes_S2048x1_p1_0_S1x2048

/-- The payload is these pieces put together. -/
theorem pay_eq (x0 : FVec Ideal S512x128 .f32) (x1 x2 : FVec Ideal S2048x128 .f32) :
    k0_pay1 (F := Ideal) x0 x1 x2
      = addf (subf (mulf (broadcast S512x2048 (Scalar.ofBits .f32 0x3F000000#32)) (term1 x0 x2)) (term2 x0 x1 x2))
          (broadcastTo S512x2048 (biasRow x1 x2) broadcasts_S1x2048_S512x2048) := rfl

theorem term1_apply (x0 : FVec Ideal S512x128 .f32) (x2 : FVec Ideal S2048x128 .f32) (p : Fin 512) (q : Fin 2048) :
    term1 x0 x2 (ix2 p q) = ∑ k : Fin 128, (x0 (ix2 p k) * x0 (ix2 p k)) * Cert.Energy.prec (x2 (ix2 q k)) := by
  unfold term1
  refine (matmul_at _ _ p q).trans (Finset.sum_congr rfl fun k _ => ?_)
  refine congrArg (x0 (ix2 p k) * x0 (ix2 p k) * ·) ?_
  exact transpose_ix2_apply (a := 2048) (b := 128) _ _ k q

theorem term2_apply (x0 : FVec Ideal S512x128 .f32) (x1 x2 : FVec Ideal S2048x128 .f32) (p : Fin 512) (q : Fin 2048) :
    term2 x0 x1 x2 (ix2 p q) = ∑ k : Fin 128, x0 (ix2 p k) * (x1 (ix2 q k) * Cert.Energy.prec (x2 (ix2 q k))) := by
  unfold term2
  refine (matmul_at _ _ p q).trans (Finset.sum_congr rfl fun k _ => ?_)
  refine congrArg (x0 (ix2 p k) * ·) ?_
  exact transpose_ix2_apply (a := 2048) (b := 128) _ _ k q

theorem biasRow_apply (x1 x2 : FVec Ideal S2048x128 .f32) (q : Fin 2048) :
    biasRow x1 x2 (ix2 (0 : Fin 1) q)
      = Ideal.ofBits .f32 0x3F000000#32
          * ((∑ k : Fin 128, x1 (ix2 q k) * (x1 (ix2 q k) * Cert.Energy.prec (x2 (ix2 q k))))
              + (((∑ k : Fin 128, Ideal.log (Cert.Energy.var (x2 (ix2 q k)))) + ∑ k : Fin 128, Cert.Energy.prec (x2 (ix2 q k)))
                  - Ideal.ofBits .f32 0x43000000#32)) := by
  unfold biasRow
  refine (transpose_ix2_apply (a := 2048) (b := 1) _ _ (0 : Fin 1) q).trans ?_
  show Ideal.ofBits .f32 0x3F000000#32
      * (shapeCast S2048x1 (rowsum (mulf x1 (mulf x1 (precV x2)))) shapeCasts_S2048_S2048x1 (ix2 q (0 : Fin 1))
          + ((shapeCast S2048x1 (rowsum (log (varV x2))) shapeCasts_S2048_S2048x1 (ix2 q (0 : Fin 1))
                + shapeCast S2048x1 (rowsum (precV x2)) shapeCasts_S2048_S2048x1 (ix2 q (0 : Fin 1)))
              - Ideal.ofBits .f32 0x43000000#32)) = _
  rw [column_apply, column_apply, column_apply, rowsum_apply, rowsum_apply, rowsum_apply]
  rfl

/-- THE ENTRY: the payload at `(p, q)` is the kernel's arrangement of the energy of rows `p` and `q`. -/
theorem pay_apply (x0 : FVec Ideal S512x128 .f32) (x1 x2 : FVec Ideal S2048x128 .f32) (p : Fin 512) (q : Fin 2048) :
    k0_pay1 (F := Ideal) x0 x1 x2 (ix2 p q)
      = Cert.Energy.energyK (fun k => x0 (ix2 p k)) (fun k => x1 (ix2 q k)) (fun k => x2 (ix2 q k)) := by
  rw [pay_eq]
  show (Ideal.ofBits .f32 0x3F000000#32 * term1 x0 x2 (ix2 p q) - term2 x0 x1 x2 (ix2 p q))
      + broadcastTo S512x2048 (biasRow x1 x2) broadcasts_S1x2048_S512x2048 (ix2 p q) = _
  rw [broadcastTo_1b_ab_apply, term1_apply, term2_apply, biasRow_apply]
  rfl

end Cert.KernelIdeal.Payload

end
-- ==== Proof.EnergyArray.lean ====
/-
  The result both programs compute, as ONE function of the three argument arrays: entry `(b, n)` of the 4096 × 8192 result is
  the energy of batch row `b` against codebook row `n` (its mean row and its variance row), in the kernel's arrangement.
-/
import proofs.«147399_j66434554134953_1_alg».proof.Proof.EnergyAlgebra
import Idealize.ShloMosaic.Lib.ValueIdx

noncomputable section

namespace Cert.Energy

open Idealize.ShloMosaic Idealize.ShloMosaic.ValueIdx

/-- The energy array. -/
def energyArr (x : (⟨2, ![4096, 128]⟩ : Shape).Idx → EReal) (mean diag : (⟨2, ![8192, 128]⟩ : Shape).Idx → EReal) :
    (⟨2, ![4096, 8192]⟩ : Shape).Idx → EReal :=
  fun i => energyK (fun k => x (ix2 (i 0) k)) (fun k => mean (ix2 (i 1) k)) (fun k => diag (ix2 (i 1) k))

theorem energyArr_apply (x : (⟨2, ![4096, 128]⟩ : Shape).Idx → EReal) (mean diag : (⟨2, ![8192, 128]⟩ : Shape).Idx → EReal)
    (b : Fin 4096) (n : Fin 8192) :
    energyArr x mean diag (ix2 b n)
      = energyK (fun k => x (ix2 b k)) (fun k => mean (ix2 n k)) (fun k => diag (ix2 n k)) := rfl

end Cert.Energy

end
-- ==== Proof.KernelValue.lean ====
/-
  From blocks to the array. The grid has 8 × 4 points; point `(a, b)` stages rows `512a … 512a + 511` of the batch array and
  rows `2048b … 2048b + 2047` of the two codebook arrays, and writes back the 512 × 2048 block `(a, b)` of the result. By the
  body's entry formula each point writes exactly its block of the energy array of the whole argument arrays; the 32 blocks tile
  the result, so after the run the result array IS the energy array.
-/
import proofs.«147399_j66434554134953_1_alg».proof.Proof.Gen.KernelIdeal.Value
import proofs.«147399_j66434554134953_1_alg».proof.Proof.KernelPayload
import proofs.«147399_j66434554134953_1_alg».proof.Proof.EnergyArray
import Idealize.ShloMosaic.Lib.Pipeline.Value

noncomputable section

namespace Cert.KernelIdeal.EnergyValue

open Cert.KernelIdeal Cert.KernelIdeal.Gen Idealize.ShloMosaic Idealize.ShloMosaic.TcCoe Idealize.SL.Sem
open Idealize.ShloMosaic.ValueIdx Cert.Energy
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's entry `(p, q)` of a block is entry `(b, n)` of the energy array of arrays `X`, `M`, `D` as soon as the
    block rows it reads are those array rows. -/
theorem pay_eq_energyArr_ix (X : S4096x128.Idx → EReal) (M D : S8192x128.Idx → EReal)
    (x0 : FVec Ideal S512x128 .f32) (x1 x2 : FVec Ideal S2048x128 .f32) (p : Fin 512) (q : Fin 2048) (b : Fin 4096) (n : Fin 8192)
    (hx : ∀ k : Fin 128, x0 (ix2 p k) = X (ix2 b k))
    (hm : ∀ k : Fin 128, x1 (ix2 q k) = M (ix2 n k))
    (hd : ∀ k : Fin 128, x2 (ix2 q k) = D (ix2 n k)) :
    k0_pay1 (F := Ideal) x0 x1 x2 (ix2 p q) = energyArr X M D (ix2 b n) := by
  refine (Cert.KernelIdeal.Payload.pay_apply x0 x1 x2 p q).trans ?_
  refine Eq.trans ?_ (energyArr_apply X M D b n).symm
  rw [funext hx, funext hm, funext hd]

/-- The same with the two entries given as indices. -/
theorem pay_eq_energyArr (X : S4096x128.Idx → EReal) (M D : S8192x128.Idx → EReal)
    (x0 : FVec Ideal S512x128 .f32) (x1 x2 : FVec Ideal S2048x128 .f32) (j : S512x2048.Idx) (i : S4096x8192.Idx)
    (hx : ∀ k : Fin 128, x0 (ix2 (j 0) k) = X (ix2 (i 0) k))
    (hm : ∀ k : Fin 128, x1 (ix2 (j 1) k) = M (ix2 (i 1) k))
    (hd : ∀ k : Fin 128, x2 (ix2 (j 1) k) = D (ix2 (i 1) k)) :
    k0_pay1 (F := Ideal) x0 x1 x2 j = energyArr X M D i := by
  have h := pay_eq_energyArr_ix X M D x0 x1 x2 (j 0) (j 1) (i 0) (i 1) hx hm hd
  exact (congrArg (k0_pay1 (F := Ideal) x0 x1 x2) (eq_ix2 j)).trans (h.trans (congrArg (energyArr X M D) (eq_ix2 i).symm))

/-- The printed index maps over the 32 grid points: the batch window follows the result's block row, the two codebook
    windows its block column, each at column block 0; and the result's block indices stay in the 8 × 4 box. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 7 ∧ win0_3.index t (1 : Fin 2) ≤ 3 :=
  (by decide +kernel : ∀ t : Fin grid0.N, _)

/-- Every block of the 8 × 4 box is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- WHAT POINT `t` WRITES BACK is block `t` of the energy array of the argument arrays. -/
theorem flushed_eq (c : Dev nD) (t : Fin cfg0.N) :
    (dats m 0 c).flushed 3 t
      = ((cfg0.win 3).blk t).view.read (Elt Ideal) (energyArr (V m c main_arg0) (V m c main_arg1) (V m c main_arg2)) := by
  rw [Cert.KernelIdeal.Value.flushed3]
  unfold out0_3
  rw [View.canon_unit_zero hz]
  simp only [View.ld_unit_zero (S := S512x128) hz, View.ld_unit_zero (S := S2048x128) hz]
  obtain ⟨e0, e1, e2, e3, e4, e5, e6, e7⟩ := idx_facts t
  funext j
  show k0_pay1 (F := Ideal) (iblk m c 0 t) (iblk m c 1 t) (iblk m c 2 t) j
      = energyArr (V m c main_arg0) (V m c main_arg1) (V m c main_arg2) (((cfg0.win 3).blk t).view.emb j)
  refine pay_eq_energyArr (V m c main_arg0) (V m c main_arg1) (V m c main_arg2) (iblk m c 0 t) (iblk m c 1 t) (iblk m c 2 t)
    j (((cfg0.win 3).blk t).view.emb j) (fun k => ?_) (fun k => ?_) (fun k => ?_)
  · show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 128 + 1 * k.val = k.val; omega
  · show V m c main_arg1 (((cfg0.win 1).blk t).view.emb (ix2 (j 1) k)) = V m c main_arg1 (ix2 ((((cfg0.win 3).blk t).view.emb j) 1) k)
    refine congrArg (V m c main_arg1) (funext fun a => Fin.ext ?_)
    match a with
    | ⟨0, _⟩ => show win0_1.index t (0 : Fin 2) * 2048 + 1 * (j 1).val = win0_3.index t (1 : Fin 2) * 2048 + 1 * (j 1).val; omega
    | ⟨1, _⟩ => show win0_1.index t (1 : Fin 2) * 128 + 1 * k.val = k.val; omega
  · show V m c main_arg2 (((cfg0.win 2).blk t).view.emb (ix2 (j 1) k)) = V m c main_arg2 (ix2 ((((cfg0.win 3).blk t).view.emb j) 1) k)
    refine congrArg (V m c main_arg2) (funext fun a => Fin.ext ?_)
    match a with
    | ⟨0, _⟩ => show win0_2.index t (0 : Fin 2) * 2048 + 1 * (j 1).val = win0_3.index t (1 : Fin 2) * 2048 + 1 * (j 1).val; omega
    | ⟨1, _⟩ => show win0_2.index t (1 : Fin 2) * 128 + 1 * k.val = k.val; omega

/-- An index of the result is in point `t`'s block iff each coordinate is in the block's range on its axis. -/
theorem mem_blk (t : Fin cfg0.N) (i : S4096x8192.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v0).slice (win0_3.rect t)).set ↔ _
  rw [View.set_slice_whole, Rect.mem_set_unit]
  exact Iff.rfl

/-- The blocks tile the result: index `(r, s)` lies in the block of the point with block indices `(r / 512, s / 2048)`. -/
theorem cover (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the run is the energy array of the arguments as launched. -/
theorem final (c : Dev nD) :
    (dats m 0 c).arrAt 3 cfg0.N
      = energyArr (m ((c : Thread nD τ).loc main_arg0)) (m ((c : Thread nD τ).loc main_arg1)) (m ((c : Thread nD τ).loc main_arg2)) :=
  (dats m 0 c).arrAt_eq_of_cover 3 (energyArr (V m c main_arg0) (V m c main_arg1) (V m c main_arg2))
    (fun t _ => flushed_eq m c t) cover

/-- The run, read: the result at the energy array, the arguments unchanged. -/
theorem run : θ_run defs (onTc (τ := τ) (main (F := Ideal))) ⟨m, fun _ => 0, ρ⟩ fun r => ∀ c : Dev nD,
      r.2.mem ((c : Thread nD τ).loc main_v0)
        = energyArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.EnergyValue

end
-- ==== Proof.ReferenceValue.lean ====
/-
  The reference program's result read at an entry `(b, n)`. Its operations, one at a time: the clipped variance and its
  reciprocal; two matrix products of the batch array (its squares, and itself) with the transposed precision and
  mean·precision arrays, each a sum over the 128 shared coordinates; three sums along the codebook rows, each started from
  the constant 0 and laid over the 4096 batch rows; and the pointwise combination `½·(((A − 2·B) + S) + ((L + I) − 128))`.
  So the entry is the reference's arrangement of the energy (`Cert.Energy.energyR`) of batch row `b` and codebook row `n`.
-/
import proofs.«147399_j66434554134953_1_alg».proof.Proof.Gen.ReferenceIdeal.Read
import proofs.«147399_j66434554134953_1_alg».proof.Proof.EnergyArray
import Idealize.ShloMosaic.Lib.ValueIdx
import Idealize.ShloMosaic.PureOps.Ideal.Laws

noncomputable section

namespace Cert.ReferenceIdeal.EnergyValue

open Cert.ReferenceIdeal Cert.ReferenceIdeal.Gen Cert.ReferenceIdeal.Read Idealize.ShloMosaic Idealize.ShloMosaic.ValueIdx
open Cert.Energy

/-! ## The clipped variance and the precision, entry by entry -/

theorem var_apply (x2 : (⟨S8192x128, .f32⟩ : BufTy).Contents (Elt Ideal)) (i : S8192x128.Idx) :
    val_main_v0 (F := Ideal) x2 i = var (x2 i) := rfl

theorem prec_apply (x2 : (⟨S8192x128, .f32⟩ : BufTy).Contents (Elt Ideal)) (i : S8192x128.Idx) :
    val_main_v2 (F := Ideal) x2 i = prec (x2 i) := rfl

/-! ## The composed index maps at `(b, n)` -/

theorem lidx5 (b : Fin 4096) (n : Fin 8192) (k : Fin 128) : lidx_main_v5 (ix2 b n) k = ix2 b k :=
  funext fun a => Fin.ext (by match a with | ⟨0, _⟩ => rfl | ⟨1, _⟩ => rfl)
theorem ridx5 (b : Fin 4096) (n : Fin 8192) (k : Fin 128) : idx_main_v4 (ridx_main_v5 (ix2 b n) k) = ix2 n k :=
  funext fun a => Fin.ext (by match a with | ⟨0, _⟩ => rfl | ⟨1, _⟩ => rfl)
theorem lidx8 (b : Fin 4096) (n : Fin 8192) (k : Fin 128) : lidx_main_v8 (ix2 b n) k = ix2 b k :=
  funext fun a => Fin.ext (by match a with | ⟨0, _⟩ => rfl | ⟨1, _⟩ => rfl)
theorem ridx8 (b : Fin 4096) (n : Fin 8192) (k : Fin 128) : idx_main_v7 (ridx_main_v8 (ix2 b n) k) = ix2 n k :=
  funext fun a => Fin.ext (by match a with | ⟨0, _⟩ => rfl | ⟨1, _⟩ => rfl)
theorem idx14 (b : Fin 4096) (n : Fin 8192) (k : Fin 128) :
    idx_main_v14 (idx_main_v15 (idx_main_v16 (ix2 b n))) k = ix2 n k :=
  funext fun a => Fin.ext (by match a with | ⟨0, _⟩ => rfl | ⟨1, _⟩ => rfl)
theorem idx19 (b : Fin 4096) (n : Fin 8192) (k : Fin 128) :
    idx_main_v19 (idx_main_v24 (idx_main_v25 (ix2 b n))) k = ix2 n k :=
  funext fun a => Fin.ext (by match a with | ⟨0, _⟩ => rfl | ⟨1, _⟩ => rfl)
theorem idx20 (b : Fin 4096) (n : Fin 8192) (k : Fin 128) :
    idx_main_v20 (idx_main_v24 (idx_main_v25 (ix2 b n))) k = ix2 n k :=
  funext fun a => Fin.ext (by match a with | ⟨0, _⟩ => rfl | ⟨1, _⟩ => rfl)

/-! ## The four summands -/

variable (x0 : (⟨S4096x128, .f32⟩ : BufTy).Contents (Elt Ideal)) (x1 x2 : (⟨S8192x128, .f32⟩ : BufTy).Contents (Elt Ideal))

/-- `A`: the squares of batch row `b` against the precisions of codebook row `n`. -/
theorem quadA_apply (b : Fin 4096) (n : Fin 8192) :
    val_main_v5 (F := Ideal) x0 x2 (ix2 b n) = ∑ k : Fin 128, (x0 (ix2 b k) * x0 (ix2 b k)) * prec (x2 (ix2 n k)) := by
  rw [val_main_v5_apply]
  refine Finset.sum_congr rfl fun k _ => ?_
  rw [val_main_v3_apply, val_main_v4_apply, lidx5, ridx5]
  rfl

/-- `B`: batch row `b` against mean·precision of codebook row `n`. -/
theorem crossB_apply (b : Fin 4096) (n : Fin 8192) :
    val_main_v8 (F := Ideal) x0 x1 x2 (ix2 b n) = ∑ k : Fin 128, x0 (ix2 b k) * (x1 (ix2 n k) * prec (x2 (ix2 n k))) := by
  rw [val_main_v8_apply]
  refine Finset.sum_congr rfl fun k _ => ?_
  rw [val_main_v7_apply, lidx8, ridx8]
  rfl

/-- `S`: the sum of mean²·precision along codebook row `n`, from the constant 0. -/
theorem sqS_apply (b : Fin 4096) (n : Fin 8192) :
    val_main_v16 (F := Ideal) x1 x2 (ix2 b n)
      = Ideal.ofBits .f32 0x00000000#32 + ∑ k : Fin 128, (x1 (ix2 n k) * x1 (ix2 n k)) * prec (x2 (ix2 n k)) := by
  rw [val_main_v16_apply, val_main_v15_apply, val_main_v14_apply]
  refine congrArg (Ideal.ofBits .f32 0x00000000#32 + ·) (Finset.sum_congr rfl fun k _ => ?_)
  rw [idx14]
  rfl

/-- `(L + I) − 128`: the sums of the logarithm of the clipped variance and of the precision along codebook row `n`. -/
theorem constC_apply (b : Fin 4096) (n : Fin 8192) :
    val_main_v25 (F := Ideal) x2 (ix2 b n)
      = ((Ideal.ofBits .f32 0x00000000#32 + ∑ k : Fin 128, Ideal.log (var (x2 (ix2 n k))))
          + (Ideal.ofBits .f32 0x00000000#32 + ∑ k : Fin 128, prec (x2 (ix2 n k)))) - Ideal.ofBits .f32 0x43000000#32 := by
  rw [val_main_v25_apply, val_main_v24_apply, val_main_v23_apply, val_main_v21_apply, val_main_v19_apply, val_main_v20_apply]
  refine congrArg₂ (fun (u v : EReal) => (u + v) - Ideal.ofBits .f32 0x43000000#32) ?_ ?_
  · refine congrArg (Ideal.ofBits .f32 0x00000000#32 + ·) (Finset.sum_congr rfl fun k _ => ?_)
    rw [idx19]
    rfl
  · refine congrArg (Ideal.ofBits .f32 0x00000000#32 + ·) (Finset.sum_congr rfl fun k _ => ?_)
    rw [idx20]
    rfl

/-! ## The entry -/

/-- THE ENTRY: the reference's result at `(b, n)` is its arrangement of the energy of rows `b` and `n`. -/
theorem ref_apply (b : Fin 4096) (n : Fin 8192) :
    val_main_v28 (F := Ideal) x0 x1 x2 (ix2 b n)
      = energyR (fun k => x0 (ix2 b k)) (fun k => x1 (ix2 n k)) (fun k => x2 (ix2 n k)) := by
  show Ideal.ofBits .f32 0x3F000000#32
      * (((val_main_v5 (F := Ideal) x0 x2 (ix2 b n) - Ideal.ofBits .f32 0x40000000#32 * val_main_v8 (F := Ideal) x0 x1 x2 (ix2 b n))
            + val_main_v16 (F := Ideal) x1 x2 (ix2 b n))
          + val_main_v25 (F := Ideal) x2 (ix2 b n)) = _
  rw [quadA_apply, crossB_apply, sqS_apply, constC_apply, Ideal.ofBits_zero_f32, zero_add, zero_add, zero_add]
  rfl

/-- On arrays of real numbers the reference's result is the energy array. -/
theorem ref_eq_energyArr (hx : ∀ i, ∃ r : ℝ, x0 i = (r : EReal)) (hm : ∀ i, ∃ r : ℝ, x1 i = (r : EReal))
    (hd : ∀ i, ∃ r : ℝ, x2 i = (r : EReal)) :
    val_main_v28 (F := Ideal) x0 x1 x2 = energyArr x0 x1 x2 := by
  funext i
  obtain ⟨b, n, rfl⟩ : ∃ (b : Fin 4096) (n : Fin 8192), i = ix2 b n := ⟨i 0, i 1, eq_ix2 i⟩
  rw [ref_apply, energyArr_apply]
  exact (energyK_eq_energyR _ _ _ (fun k => hx _) (fun k => hm _) (fun k => hd _)).symm

end Cert.ReferenceIdeal.EnergyValue

end
-- ==== Proof.lean ====
/-
  The energies `E[b, n] = KL( N(x_b, I) ‖ N(mean_n, diag(diag_n)) )` of 4096 batch rows against 8192 codebook rows, computed by
  a tiled kernel (an 8 × 4 grid of 512 × 2048 result blocks) and by a whole-array reference.

  With `v = max ε diag` the clipped variance and `p = 1 / v` the precision, both programs expand the quadratic form into
  `A = ∑ x²·p`, `B = ∑ x·(mean·p)`, `S = ∑ mean²·p` and add `L = ∑ log v`, `I = ∑ p`, all sums over the 128 coordinates. The
  kernel stores `(½·A − B) + ½·(S + ((L + I) − 128))`, the reference `½·(((A − 2·B) + S) + ((L + I) − 128))`. On the extended reals
  these are equal when the inputs are finite: then `v ≥ ε > 0` is a real number, so are `p` and `log v` and every sum, and the
  identity is one of the real field (Proof/EnergyAlgebra.lean). The precondition gives exactly that (Proof/FiniteInputs.lean).
  The kernel's result array is the energy array block by block (Proof/KernelPayload.lean: one entry of a block from the rows the
  point staged; Proof/KernelValue.lean: the 32 blocks tile the result), and the reference's result is the energy array operation by
  operation (Proof/ReferenceValue.lean). The three frames are the runs themselves; the idealization rewrote nothing.
-/
import proofs.«147399_j66434554134953_1_alg».proof.Defs
import proofs.«147399_j66434554134953_1_alg».proof.Proof.Gen.Kernel
import proofs.«147399_j66434554134953_1_alg».proof.Proof.Gen.Kernel.Skeleton
import proofs.«147399_j66434554134953_1_alg».proof.Proof.Gen.Kernel.Launch
import proofs.«147399_j66434554134953_1_alg».proof.Proof.Gen.Kernel.Points
import proofs.«147399_j66434554134953_1_alg».proof.Proof.Gen.Kernel.Frame
import proofs.«147399_j66434554134953_1_alg».proof.Proof.Gen.KernelIdeal
import proofs.«147399_j66434554134953_1_alg».proof.Proof.Gen.KernelIdeal.Skeleton
import proofs.«147399_j66434554134953_1_alg».proof.Proof.Gen.KernelIdeal.Launch
import proofs.«147399_j66434554134953_1_alg».proof.Proof.Gen.KernelIdeal.Points
import proofs.«147399_j66434554134953_1_alg».proof.Proof.Gen.KernelIdeal.Frame
import proofs.«147399_j66434554134953_1_alg».proof.Proof.Gen.ReferenceIdeal
import proofs.«147399_j66434554134953_1_alg».proof.Proof.Gen.Pre_finite_inputs
import proofs.«147399_j66434554134953_1_alg».proof.Proof.Gen.KernelIdeal.Value
import proofs.«147399_j66434554134953_1_alg».proof.Proof.Gen.ReferenceIdeal.Run
import proofs.«147399_j66434554134953_1_alg».proof.Proof.Gen.ReferenceIdeal.Read
import proofs.«147399_j66434554134953_1_alg».proof.Proof.FiniteInputs
import proofs.«147399_j66434554134953_1_alg».proof.Proof.KernelValue
import proofs.«147399_j66434554134953_1_alg».proof.Proof.ReferenceValue
import Idealize.ShloMosaic.Adequacy
import Idealize.ShloMosaic.Init

noncomputable section

namespace Cert.Proof

open Idealize.ShloMosaic Idealize.SL.Sem Cert.Kernel

/-- Both idealized programs end with the energy array of the (agreeing, finite) arguments in their result. -/
theorem algebraic : Cert.algebraic_KernelIdeal_ReferenceIdeal := by
  intro m ρ m' ρ' hpre hagree
  refine ⟨fun c => Cert.Energy.energyArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.EnergyValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hm, hd⟩ := Cert.Finite.entries_real _ _ _ (hpre c)
  rw [(hagree c).1, (hagree c).2.1, (hagree c).2.2, Cert.ReferenceIdeal.Read.val_main_v28_eq]
  exact Cert.ReferenceIdeal.EnergyValue.ref_eq_energyArr _ _ _ hx hm hd

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
